-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S32x2048x64.size a
  hwx0_3 : ∀ i : grid0.Coords, EltTy.bits .f32 = 32 ∨ (Rect.block (s := S32x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S32x2048x2048.size a
  hwx0_4 : ∀ i : grid0.Coords, EltTy.bits .f32 = 32 ∨ (Rect.block (s := S32x2048x2048) S1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S_, .f32⟩
  | .hbm, ⟨15, _⟩ => ⟨S2x16x2048x1, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.HeadSpec.lean ====
/-
  Quadratic-kernel attention for ONE query row against one head's key and value matrices, over the extended
  reals. With the score `s_j = (∑_d q_d · k_{j,d}) · (1/8) + 3`, the weight of key `j` is
  `s_j² / (∑_{j'} s_{j'}² + ε)` and the output is the weighted sum of the value rows. The constants stay the
  f32 words both programs spell (1/8, 3, ε ≈ 1e-6): the same word on both sides is never evaluated.
  Both programs compute exactly these sums in exactly this order of operations, so no algebraic law beyond
  `0 + x = x` joins them, and finiteness of the inputs is never used.
-/
import Idealize.ShloMosaic.PureOps.Ideal
import Idealize.ShloMosaic.PureOps.Ideal.Laws
import Idealize.ShloMosaic.Lib.ValueIdx

noncomputable section

namespace QuadAttn

open Idealize.ShloMosaic

/-- The scale 1/8 = 1/√64, as the f32 word both programs multiply the score by. -/
abbrev cScale : EReal := Ideal.ofBits .f32 0x3E000000#32
/-- The shift 3. -/
abbrev cShift : EReal := Ideal.ofBits .f32 0x40400000#32
/-- The regulariser ε added to the normaliser. -/
abbrev cEps : EReal := Ideal.ofBits .f32 0x358637BD#32

/-- The squared shifted score of a query row against a key row: `((∑_d q_d k_d) / 8 + 3)²`. -/
def num (q kr : Fin 64 → EReal) : EReal :=
  ((∑ d : Fin 64, q d * kr d) * cScale + cShift) * ((∑ d : Fin 64, q d * kr d) * cScale + cShift)

/-- The normaliser of a query row: the sum of its squared scores over all 2048 keys, plus ε. -/
def den (q : Fin 64 → EReal) (k : Fin 2048 → Fin 64 → EReal) : EReal :=
  (∑ j : Fin 2048, num q (k j)) + cEps

/-- The attention weight of key `j` for a query row. -/
def prob (q : Fin 64 → EReal) (k : Fin 2048 → Fin 64 → EReal) (j : Fin 2048) : EReal :=
  Ideal.div (num q (k j)) (den q k)

/-- The attention output of a query row at feature `d`: the weighted sum of the values' column `d`. -/
def out (q : Fin 64 → EReal) (k v : Fin 2048 → Fin 64 → EReal) (d : Fin 64) : EReal :=
  ∑ j : Fin 2048, prob q k j * v j d

/-- The weight depends only on the query row, the key matrix and the key's position. -/
theorem prob_congr {q q' : Fin 64 → EReal} {k k' : Fin 2048 → Fin 64 → EReal} {j j' : Fin 2048}
    (hq : q = q') (hk : k = k') (hj : j = j') : prob q k j = prob q' k' j' := by
  subst hq hk hj; rfl

/-- The output depends only on the query row, the key and value matrices and the feature. -/
theorem out_congr {q q' : Fin 64 → EReal} {k k' v v' : Fin 2048 → Fin 64 → EReal} {d d' : Fin 64}
    (hq : q = q') (hk : k = k') (hv : v = v') (hd : d = d') : out q k v d = out q' k' v' d' := by
  subst hq hk hv hd; rfl

/-! ## The four-axis arrays `[batch, head, position, feature]` read head by head -/

open Idealize.ShloMosaic.ValueIdx

/-- Row `i` of head `(b, h)` of a `[2, 16, 2048, 64]` array. -/
def row4 (x : (⟨4, ![2, 16, 2048, 64]⟩ : Shape).Idx → EReal) (b : Fin 2) (h : Fin 16) (i : Fin 2048) : Fin 64 → EReal :=
  fun d => x (ix4 b h i d)

/-- Head `(b, h)` of a `[2, 16, 2048, 64]` array, as a 2048 × 64 matrix. -/
def head4 (x : (⟨4, ![2, 16, 2048, 64]⟩ : Shape).Idx → EReal) (b : Fin 2) (h : Fin 16) : Fin 2048 → Fin 64 → EReal :=
  fun j d => x (ix4 b h j d)

/-- The attention weights of the whole problem: entry `(b, h, i, j)` is the weight of key `j` for query `i` in head `(b, h)`. -/
def probArr (q k : (⟨4, ![2, 16, 2048, 64]⟩ : Shape).Idx → EReal) : (⟨4, ![2, 16, 2048, 2048]⟩ : Shape).Idx → EReal :=
  fun i => prob (row4 q (i 0) (i 1) (i 2)) (head4 k (i 0) (i 1)) (i 3)

/-- The attention outputs of the whole problem. -/
def outArr (q k v : (⟨4, ![2, 16, 2048, 64]⟩ : Shape).Idx → EReal) : (⟨4, ![2, 16, 2048, 64]⟩ : Shape).Idx → EReal :=
  fun i => out (row4 q (i 0) (i 1) (i 2)) (head4 k (i 0) (i 1)) (head4 v (i 0) (i 1)) (i 3)

/-! ## The same arrays with batch and head merged into one axis of 32: `[batch·16 + head, position, feature]` -/

/-- Row `i` of head `g` of a `[32, 2048, 64]` array. -/
def row3 (x : (⟨3, ![32, 2048, 64]⟩ : Shape).Idx → EReal) (g : Fin 32) (i : Fin 2048) : Fin 64 → EReal :=
  fun d => x (ix3 g i d)

/-- Head `g` of a `[32, 2048, 64]` array, as a 2048 × 64 matrix. -/
def head3 (x : (⟨3, ![32, 2048, 64]⟩ : Shape).Idx → EReal) (g : Fin 32) : Fin 2048 → Fin 64 → EReal :=
  fun j d => x (ix3 g j d)

/-- The attention weights over merged heads: entry `(g, i, j)`. -/
def probArr3 (q k : (⟨3, ![32, 2048, 64]⟩ : Shape).Idx → EReal) : (⟨3, ![32, 2048, 2048]⟩ : Shape).Idx → EReal :=
  fun i => prob (row3 q (i 0) (i 1)) (head3 k (i 0)) (i 2)

/-- The attention outputs over merged heads: entry `(g, i, d)`. -/
def outArr3 (q k v : (⟨3, ![32, 2048, 64]⟩ : Shape).Idx → EReal) : (⟨3, ![32, 2048, 64]⟩ : Shape).Idx → EReal :=
  fun i => out (row3 q (i 0) (i 1)) (head3 k (i 0)) (head3 v (i 0)) (i 2)

end QuadAttn

end
-- ==== Proof.RefValue.lean ====
/-
  The reference program, read stage by stage at an index, computes the per-head quadratic attention of
  `HeadSpec`: its batched `dot_general` over the feature axis is the score sum of one query row against one key
  row, its row sum over the key axis (from the zero word) is the normaliser without ε, and its second batched
  `dot_general` over the key axis is the weighted sum of value rows.
-/
import proofs.«128297_j47691316855186_1_alg».proof.Defs
import proofs.«128297_j47691316855186_1_alg».proof.Proof.Gen.ReferenceIdeal.Run
import proofs.«128297_j47691316855186_1_alg».proof.Proof.Gen.ReferenceIdeal.Read
import proofs.«128297_j47691316855186_1_alg».proof.Proof.HeadSpec

noncomputable section

namespace Cert.ReferenceIdeal.RefValue

open Cert.ReferenceIdeal Cert.ReferenceIdeal.Read Idealize.ShloMosaic Idealize.ShloMosaic.ValueIdx QuadAttn

/-- The left operand's index of the score product at `(b, h, i, j)` and feature `d` is `(b, h, i, d)`. -/
theorem lidx_score (b : Fin 2) (h : Fin 16) (i j : Fin 2048) (d : Fin 64) :
    lidx_main_v0 (ix4 b h i j) d = ix4 b h i d :=
  funext fun a => Fin.ext (by match a with | ⟨0, _⟩ => rfl | ⟨1, _⟩ => rfl | ⟨2, _⟩ => rfl | ⟨3, _⟩ => rfl)

/-- The right operand's index there is `(b, h, j, d)`. -/
theorem ridx_score (b : Fin 2) (h : Fin 16) (i j : Fin 2048) (d : Fin 64) :
    ridx_main_v0 (ix4 b h i j) d = ix4 b h j d :=
  funext fun a => Fin.ext (by match a with | ⟨0, _⟩ => rfl | ⟨1, _⟩ => rfl | ⟨2, _⟩ => rfl | ⟨3, _⟩ => rfl)

/-- The reference's squared shifted score at `(b, h, i, j)`. -/
theorem num_apply (x0 x1 : (⟨S2x16x2048x64, .f32⟩ : BufTy).Contents (Elt Ideal)) (b : Fin 2) (h : Fin 16) (i j : Fin 2048) :
    val_main_v5 (F := Ideal) x0 x1 (ix4 b h i j) = num (row4 x0 b h i) (head4 x1 b h j) := by
  rw [val_main_v5_apply, val_main_v4_apply, val_main_v2_apply, val_main_v0_apply, val_main_v1_apply, val_main_v3_apply,
    val_main_cst_apply, val_main_cst_0_apply]
  simp only [Ideal.mulf_def, Ideal.addf_def, Ideal.ofBits_def, lidx_score, ridx_score]
  rfl

/-- The key-axis sum at `(b, h, i)` runs over the entries `(b, h, i, j)`. -/
theorem idx_rowsum (b : Fin 2) (h : Fin 16) (i : Fin 2048) (u : Fin 1) (j : Fin 2048) :
    idx_main_v6 (idx_main_v7 (ix4 b h i u)) j = ix4 b h i j :=
  funext fun a => Fin.ext (by match a with | ⟨0, _⟩ => rfl | ⟨1, _⟩ => rfl | ⟨2, _⟩ => rfl | ⟨3, _⟩ => rfl)

/-- The reference's normaliser at `(b, h, i)`, kept as a one-column array. -/
theorem den_apply (x0 x1 : (⟨S2x16x2048x64, .f32⟩ : BufTy).Contents (Elt Ideal)) (b : Fin 2) (h : Fin 16) (i : Fin 2048) (u : Fin 1) :
    val_main_v9 (F := Ideal) x0 x1 (ix4 b h i u) = den (row4 x0 b h i) (head4 x1 b h) := by
  rw [val_main_v9_apply, val_main_v7_apply, val_main_v6_apply, val_main_v8_apply, val_main_cst_2_apply, val_main_cst_1_apply]
  simp only [Ideal.addf_def, Ideal.ofBits_def, Ideal.ofBits_zero_f32, zero_add, idx_rowsum, num_apply]
  rfl

/-- The normaliser broadcast along the key axis is read at column 0. -/
theorem idx_bcast (b : Fin 2) (h : Fin 16) (i j : Fin 2048) :
    idx_main_v10 (ix4 b h i j) = ix4 b h i (0 : Fin 1) :=
  funext fun a => Fin.ext (by match a with | ⟨0, _⟩ => rfl | ⟨1, _⟩ => rfl | ⟨2, _⟩ => rfl | ⟨3, _⟩ => rfl)

/-- The reference's attention weights are `probArr` of its first two arguments. -/
theorem prob_eq (x0 x1 : (⟨S2x16x2048x64, .f32⟩ : BufTy).Contents (Elt Ideal)) :
    val_main_v11 (F := Ideal) x0 x1 = probArr x0 x1 := by
  funext i
  obtain ⟨b, h, r, j, rfl⟩ : ∃ (b : Fin 2) (h : Fin 16) (r j : Fin 2048), i = ix4 b h r j := ⟨i 0, i 1, i 2, i 3, eq_ix4 i⟩
  rw [val_main_v11_apply, val_main_v10_apply, idx_bcast, den_apply, num_apply]
  rfl

/-- The weights' index of the output product at `(b, h, i, d)` and key `j` is `(b, h, i, j)`. -/
theorem lidx_out (b : Fin 2) (h : Fin 16) (i : Fin 2048) (d : Fin 64) (j : Fin 2048) :
    lidx_main_v12 (ix4 b h i d) j = ix4 b h i j :=
  funext fun a => Fin.ext (by match a with | ⟨0, _⟩ => rfl | ⟨1, _⟩ => rfl | ⟨2, _⟩ => rfl | ⟨3, _⟩ => rfl)

/-- The values' index there is `(b, h, j, d)`. -/
theorem ridx_out (b : Fin 2) (h : Fin 16) (i : Fin 2048) (d : Fin 64) (j : Fin 2048) :
    ridx_main_v12 (ix4 b h i d) j = ix4 b h j d :=
  funext fun a => Fin.ext (by match a with | ⟨0, _⟩ => rfl | ⟨1, _⟩ => rfl | ⟨2, _⟩ => rfl | ⟨3, _⟩ => rfl)

/-- The reference's attention outputs are `outArr` of its three arguments. -/
theorem out_eq (x0 x1 x2 : (⟨S2x16x2048x64, .f32⟩ : BufTy).Contents (Elt Ideal)) :
    val_main_v12 (F := Ideal) x0 x1 x2 = outArr x0 x1 x2 := by
  funext i
  obtain ⟨b, h, r, d, rfl⟩ : ∃ (b : Fin 2) (h : Fin 16) (r : Fin 2048) (d : Fin 64), i = ix4 b h r d := ⟨i 0, i 1, i 2, i 3, eq_ix4 i⟩
  rw [val_main_v12_apply]
  simp only [lidx_out, ridx_out, prob_eq]
  rfl

end Cert.ReferenceIdeal.RefValue

end
-- ==== Proof.KernelRow.lean ====
/-
  The kernel body's two stored values, read at an index over the extended reals. For row `r` of the query
  block `x0` and the whole key and value blocks `x1`, `x2` of one head, the first store (the weights block) holds at
  `(r, j)` the quadratic attention weight of key `j` for that row, and the second store (the output block) holds at
  `(r, d)` the weighted sum of the value rows: the `HeadSpec` functions of row `r` of `x0` and the matrices `x1`, `x2`.
  The score product contracts the feature axis of both operands (keys are not transposed in memory), the row sum
  runs over the key axis from the zero word, the normaliser is kept as a one-column array and broadcast back along
  the key axis, and narrowing to bf16 and widening back are the identity on the extended reals.
-/
import proofs.«128297_j47691316855186_1_alg».proof.Proof.Gen.KernelIdeal.Skeleton
import proofs.«128297_j47691316855186_1_alg».proof.Proof.HeadSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx QuadAttn

/-! ## The score product: rows of the query block against rows of the key block -/

theorem lhs_score_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_score_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_score_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_score_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score product into the zero accumulator, at `(r, j)`: the sum over the 64 features of query row `r` times key row `j`. -/
theorem score_apply (xq : FVec Ideal S256x64 .bf16) (xk : FVec Ideal S2048x64 .bf16) (r : Fin 256) (j : Fin 2048) :
    matmul dot_S256x64_S2048x64_S256x2048_1_1_0_0_n_n none xq xk (constant (F := Ideal) S256x2048 .f32 0x00000000#32) (ix2 r j)
      = ∑ d : Fin 64, xq (ix2 r d) * xk (ix2 j d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 r j) ((ValueIdx.contrEquiv1 dot_S256x64_S2048x64_S256x2048_1_1_0_0_n_n 64 rfl rfl).symm k) = ix2 r k := funext fun a => Fin.ext (by
    match a with
    | ⟨0, _⟩ => exact lhs_score_0 _ _
    | ⟨1, _⟩ => exact (lhs_score_1 _ _).trans hk)
  have er : dot_S256x64_S2048x64_S256x2048_1_1_0_0_n_n.rhsIdx (ix2 r j) ((ValueIdx.contrEquiv1 dot_S256x64_S2048x64_S256x2048_1_1_0_0_n_n 64 rfl rfl).symm k) = ix2 j k := funext fun a => Fin.ext (by
    match a with
    | ⟨0, _⟩ => exact rhs_score_0 _ _
    | ⟨1, _⟩ => exact (rhs_score_1 _ _).trans hk)
  rw [el, er]

/-! ## The output product: rows of the weights against columns of the value block -/

theorem lhs_mix_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_mix_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_mix_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_mix_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output product into the zero accumulator, at `(r, d)`: the sum over the 2048 keys of weight `(r, j)` times value `(j, d)`. -/
theorem mix_apply (p : FVec Ideal S256x2048 .bf16) (xv : FVec Ideal S2048x64 .bf16) (r : Fin 256) (d : Fin 64) :
    matmul dot_S256x2048_S2048x64_S256x64_1_0_0_1_n_n none p xv (constant (F := Ideal) S256x64 .f32 0x00000000#32) (ix2 r d)
      = ∑ j : Fin 2048, p (ix2 r j) * xv (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact lhs_mix_0 _ _
    | ⟨1, _⟩ => exact (lhs_mix_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (rhs_mix_0 _ _).trans hk
    | ⟨1, _⟩ => exact rhs_mix_1 _ _)
  rw [el, er]

/-! ## The row sum and the one-column layout of the normaliser -/

/-- The sum along the key axis from the zero word, at row `r`. -/
theorem rowsum_apply (src : FVec Ideal S256x2048 .f32) (r : Fin 256) :
    multiReduction .add [1] S256 src 0x00000000#32 reduces_S256x2048_S256 (.inl rfl) rfl (ix1 r) = ∑ j : Fin 2048, src (ix2 r j) := by
  refine (Ideal.multiReduction_add_single src 0x00000000#32 reduces_S256x2048_S256 (.inl rfl) rfl (ix1 r)).trans ?_
  refine Finset.sum_congr rfl fun k _ => congrArg src ?_
  funext a
  apply Fin.ext
  match a with
  | ⟨0, _⟩ => rfl
  | ⟨1, _⟩ => rfl

/-- A vector of 256 entries laid out as a 256 × 1 column reads, at `(r, 0)`, entry `r`. -/
theorem column_apply {α : Type} (x : S256.Idx → α) (r : Fin 256) (u : Fin 1) :
    shapeCast S256x1 x shapeCasts_S256_S256x1 (ix2 r u) = x (ix1 r) :=
  shapeCast_apply x _ _ _ (by
    rw [Shape.rowMajor_val_one, Shape.rowMajor_val_two]
    show r.val = r.val * 1 + u.val
    omega)

/-- A 256 × 1 column broadcast along the key axis reads, at `(r, j)`, the column's entry `r`. -/
theorem spread_apply {α : Type} (x : S256x1.Idx → α) (r : Fin 256) (j : Fin 2048) :
    broadcastTo S256x2048 x broadcasts_S256x1_S256x2048 (ix2 r j) = x (ix2 r (0 : Fin 1)) :=
  broadcastTo_apply x _ _ _ (fun a => match a with
    | ⟨0, _⟩ => by show r.val = if (256 : Nat) = 1 then 0 else r.val; rw [if_neg (by decide)]
    | ⟨1, _⟩ => by show 0 = if (1 : Nat) = 1 then 0 else j.val; rw [if_pos rfl])

/-! ## The two stored values -/

/-- The block of squared shifted scores the body forms from the query and key blocks. -/
def numBlk (x0 : Vec Ideal S1x256x64 .f32) (x1 : Vec Ideal S1x2048x64 .f32) : FVec Ideal S256x2048 .f32 :=
  mulf
    (addf (mulf (matmul dot_S256x64_S2048x64_S256x2048_1_1_0_0_n_n none
        (truncf .bf16 (shapeCast S256x64 x0 shapeCasts_S1x256x64_S256x64 : FVec Ideal S256x64 .f32) bitsLt_bf16_f32)
        (truncf .bf16 (shapeCast S2048x64 x1 shapeCasts_S1x2048x64_S2048x64 : FVec Ideal S2048x64 .f32) bitsLt_bf16_f32)
        (constant (F := Ideal) S256x2048 .f32 0x00000000#32))
      (broadcast S256x2048 (Scalar.ofBits (F := Ideal) .f32 0x3E000000#32)))
      (broadcast S256x2048 (Scalar.ofBits (F := Ideal) .f32 0x40400000#32)))
    (addf (mulf (matmul dot_S256x64_S2048x64_S256x2048_1_1_0_0_n_n none
        (truncf .bf16 (shapeCast S256x64 x0 shapeCasts_S1x256x64_S256x64 : FVec Ideal S256x64 .f32) bitsLt_bf16_f32)
        (truncf .bf16 (shapeCast S2048x64 x1 shapeCasts_S1x2048x64_S2048x64 : FVec Ideal S2048x64 .f32) bitsLt_bf16_f32)
        (constant (F := Ideal) S256x2048 .f32 0x00000000#32))
      (broadcast S256x2048 (Scalar.ofBits (F := Ideal) .f32 0x3E000000#32)))
      (broadcast S256x2048 (Scalar.ofBits (F := Ideal) .f32 0x40400000#32)))

/-- At `(r, j)` it holds the squared shifted score of row `r` of the query block against row `j` of the key block. -/
theorem numBlk_apply (x0 : Vec Ideal S1x256x64 .f32) (x1 : Vec Ideal S1x2048x64 .f32) (r : Fin 256) (j : Fin 2048) :
    numBlk x0 x1 (ix2 r j) = num (fun d => x0 (ix3 (0 : Fin 1) r d)) (fun d => x1 (ix3 (0 : Fin 1) j d)) := by
  unfold numBlk num
  simp only [mulf_apply, addf_apply, broadcast_apply, score_apply, truncf_apply, shapeCast_1ab_ab_apply]
  rfl

/-- The weights the body forms are the squared scores over their row sums plus ε, the row sum kept as a column and spread back. -/
theorem weights_eq (x0 : Vec Ideal S1x256x64 .f32) (x1 : Vec Ideal S1x2048x64 .f32) :
    k0_pay1 (F := Ideal) x0 x1
      = divf (numBlk x0 x1) (broadcastTo S256x2048
          (addf (shapeCast S256x1 (multiReduction .add [1] S256 (numBlk x0 x1) 0x00000000#32 reduces_S256x2048_S256 (.inl rfl) rfl) shapeCasts_S256_S256x1)
            (broadcast S256x1 (Scalar.ofBits (F := Ideal) .f32 0x358637BD#32)))
          broadcasts_S256x1_S256x2048) := rfl

/-- The weights at `(r, j)`: the attention weight of key `j` for row `r` of the query block. -/
theorem weights_apply (x0 : Vec Ideal S1x256x64 .f32) (x1 : Vec Ideal S1x2048x64 .f32) (r : Fin 256) (j : Fin 2048) :
    k0_pay1 (F := Ideal) x0 x1 (ix2 r j) = prob (fun d => x0 (ix3 (0 : Fin 1) r d)) (fun j' d => x1 (ix3 (0 : Fin 1) j' d)) j := by
  rw [weights_eq, divf_apply, spread_apply, addf_apply, column_apply, rowsum_apply, broadcast_apply]
  simp only [numBlk_apply]
  rfl

/-- The first store's value at `(0, r, j)`. -/
theorem stored_weights_apply (x0 : Vec Ideal S1x256x64 .f32) (x1 : Vec Ideal S1x2048x64 .f32) (u : Fin 1) (r : Fin 256) (j : Fin 2048) :
    k0_pay2 (F := Ideal) x0 x1 (ix3 u r j) = prob (fun d => x0 (ix3 (0 : Fin 1) r d)) (fun j' d => x1 (ix3 (0 : Fin 1) j' d)) j := by
  unfold k0_pay2
  exact (shapeCast_ab_1ab_apply _ _ u r j).trans (weights_apply x0 x1 r j)

/-- The second store's value at `(0, r, d)`: the weighted sum of the value rows. -/
theorem stored_out_apply (x0 : Vec Ideal S1x256x64 .f32) (x1 x2 : Vec Ideal S1x2048x64 .f32) (u : Fin 1) (r : Fin 256) (d : Fin 64) :
    k0_pay3 (F := Ideal) x0 x1 x2 (ix3 u r d)
      = out (fun d' => x0 (ix3 (0 : Fin 1) r d')) (fun j d' => x1 (ix3 (0 : Fin 1) j d')) (fun j d' => x2 (ix3 (0 : Fin 1) j d')) d := by
  unfold k0_pay3
  refine (shapeCast_ab_1ab_apply _ _ u r d).trans ?_
  rw [mix_apply]
  simp only [truncf_apply, weights_apply, shapeCast_1ab_ab_apply]
  rfl

end Cert.KernelIdeal.RowValue

end
-- ==== Proof.KernelArrays.lean ====
/-
  From the kernel's grid points to its two result arrays. Grid point `t` of the 32 × 8 grid handles head
  `t / 8` and the query tile `t mod 8` (rows `256·(t mod 8) … 256·(t mod 8) + 255`): it reads that tile of the
  queries and the whole key and value matrices of the head, and writes back the matching 256-row tiles of the
  weights and of the outputs. Every entry of either result array lies in exactly the tile of the point
  `8·head + row / 256`, so after the run the weights array is `probArr3` and the output array `outArr3` of the three
  merged-head arrays the region finds.
-/
import proofs.«128297_j47691316855186_1_alg».proof.Proof.Gen.KernelIdeal.Frame
import proofs.«128297_j47691316855186_1_alg».proof.Proof.KernelRow
import Idealize.ShloMosaic.Lib.Pipeline.Value

set_option maxRecDepth 16384

noncomputable section

namespace Cert.KernelIdeal.ArrValue

open Cert.KernelIdeal Cert.KernelIdeal.Gen Cert.KernelIdeal.RowValue Idealize.ShloMosaic Idealize.ShloMosaic.TcCoe Idealize.SL.Sem
open Idealize.ShloMosaic.ValueIdx QuadAttn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: point `t` is head `t / 8`, query tile `t mod 8`; the key and value windows
    take the head's whole matrix. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The input blocks as entries of the merged-head arrays -/

/-- The query block at point `t`: entry `(0, r, d)` is entry `(t / 8, 256·(t mod 8) + r, d)` of the query array. -/
theorem qblk_apply (c : Dev nD) (t : Fin cfg0.N) (u : Fin 1) (r : Fin 256) (d : Fin 64) (k : S32x2048x64.Idx)
    (hk0 : (k 0).val = t.val / 8) (hk1 : (k 1).val = t.val % 8 * 256 + r.val) (hk2 : (k 2).val = d.val) :
    (iblk m c 0 t : Vec Ideal S1x256x64 .f32) (ix3 u r d) = (V m c main_v0 : S32x2048x64.Idx → Elt Ideal .f32) k := by
  obtain ⟨e0, e1, e2, -⟩ := idx_facts t
  unfold iblk
  rw [View.read_apply]
  show V m c main_v0 _ = V m c main_v0 k
  congr 1
  funext a
  apply Fin.ext
  match a with
  | ⟨0, _⟩ => show win0_0.index t (0 : Fin 3) * 1 + 1 * u.val = (k 0).val; rw [e0, hk0]; omega
  | ⟨1, _⟩ => show win0_0.index t (1 : Fin 3) * 256 + 1 * r.val = (k 1).val; rw [e1, hk1]; omega
  | ⟨2, _⟩ => show win0_0.index t (2 : Fin 3) * 64 + 1 * d.val = (k 2).val; rw [e2, hk2]; omega

/-- The key block at point `t`: entry `(0, j, d)` is entry `(t / 8, j, d)` of the key array. -/
theorem kblk_apply (c : Dev nD) (t : Fin cfg0.N) (u : Fin 1) (j : Fin 2048) (d : Fin 64) (k : S32x2048x64.Idx)
    (hk0 : (k 0).val = t.val / 8) (hk1 : (k 1).val = j.val) (hk2 : (k 2).val = d.val) :
    (iblk m c 1 t : Vec Ideal S1x2048x64 .f32) (ix3 u j d) = (V m c main_v1 : S32x2048x64.Idx → Elt Ideal .f32) k := by
  obtain ⟨-, -, -, e0, e1, e2, -⟩ := idx_facts t
  unfold iblk
  rw [View.read_apply]
  show V m c main_v1 _ = V m c main_v1 k
  congr 1
  funext a
  apply Fin.ext
  match a with
  | ⟨0, _⟩ => show win0_1.index t (0 : Fin 3) * 1 + 1 * u.val = (k 0).val; rw [e0, hk0]; omega
  | ⟨1, _⟩ => show win0_1.index t (1 : Fin 3) * 2048 + 1 * j.val = (k 1).val; rw [e1, hk1]; omega
  | ⟨2, _⟩ => show win0_1.index t (2 : Fin 3) * 64 + 1 * d.val = (k 2).val; rw [e2, hk2]; omega

/-- The value block at point `t`: entry `(0, j, d)` is entry `(t / 8, j, d)` of the value array. -/
theorem vblk_apply (c : Dev nD) (t : Fin cfg0.N) (u : Fin 1) (j : Fin 2048) (d : Fin 64) (k : S32x2048x64.Idx)
    (hk0 : (k 0).val = t.val / 8) (hk1 : (k 1).val = j.val) (hk2 : (k 2).val = d.val) :
    (iblk m c 2 t : Vec Ideal S1x2048x64 .f32) (ix3 u j d) = (V m c main_v2 : S32x2048x64.Idx → Elt Ideal .f32) k := by
  obtain ⟨-, -, -, -, -, -, e0, e1, e2, -⟩ := idx_facts t
  unfold iblk
  rw [View.read_apply]
  show V m c main_v2 _ = V m c main_v2 k
  congr 1
  funext a
  apply Fin.ext
  match a with
  | ⟨0, _⟩ => show win0_2.index t (0 : Fin 3) * 1 + 1 * u.val = (k 0).val; rw [e0, hk0]; omega
  | ⟨1, _⟩ => show win0_2.index t (1 : Fin 3) * 2048 + 1 * j.val = (k 1).val; rw [e1, hk1]; omega
  | ⟨2, _⟩ => show win0_2.index t (2 : Fin 3) * 64 + 1 * d.val = (k 2).val; rw [e2, hk2]; omega

/-! ## What a point writes back -/

/-- Where entry `(0, r, j)` of the weights tile of point `t` sits in the weights array. -/
theorem wtile_emb (t : Fin cfg0.N) (u : Fin 1) (r : Fin 256) (j : Fin 2048) :
    ((((cfg0.win 4).blk t).view.emb (ix3 u r j)) 0).val = t.val / 8
    ∧ ((((cfg0.win 4).blk t).view.emb (ix3 u r j)) 1).val = t.val % 8 * 256 + r.val
    ∧ ((((cfg0.win 4).blk t).view.emb (ix3 u r j)) 2).val = j.val := by
  obtain ⟨-, -, -, -, -, -, -, -, -, -, -, -, e0, e1, e2⟩ := idx_facts t
  refine ⟨?_, ?_, ?_⟩
  · show win0_4.index t (0 : Fin 3) * 1 + 1 * u.val = _; rw [e0]; omega
  · show win0_4.index t (1 : Fin 3) * 256 + 1 * r.val = _; rw [e1]; omega
  · show win0_4.index t (2 : Fin 3) * 2048 + 1 * j.val = _; rw [e2]; omega

/-- Where entry `(0, r, d)` of the output tile of point `t` sits in the output array. -/
theorem otile_emb (t : Fin cfg0.N) (u : Fin 1) (r : Fin 256) (d : Fin 64) :
    ((((cfg0.win 3).blk t).view.emb (ix3 u r d)) 0).val = t.val / 8
    ∧ ((((cfg0.win 3).blk t).view.emb (ix3 u r d)) 1).val = t.val % 8 * 256 + r.val
    ∧ ((((cfg0.win 3).blk t).view.emb (ix3 u r d)) 2).val = d.val := by
  obtain ⟨-, -, -, -, -, -, -, -, -, e0, e1, e2, -⟩ := idx_facts t
  refine ⟨?_, ?_, ?_⟩
  · show win0_3.index t (0 : Fin 3) * 1 + 1 * u.val = _; rw [e0]; omega
  · show win0_3.index t (1 : Fin 3) * 256 + 1 * r.val = _; rw [e1]; omega
  · show win0_3.index t (2 : Fin 3) * 64 + 1 * d.val = _; rw [e2]; omega

/-- Point `t` writes back the weights tile of `probArr3` of the query and key arrays. -/
theorem flushed_weights (c : Dev nD) (t : Fin cfg0.N) :
    (dats m 0 c).flushed 4 t = ((cfg0.win 4).blk t).view.read (Elt Ideal) (probArr3 (V m c main_v0) (V m c main_v1)) := by
  show (cfg0.win 4).cut (grid0.coords t) ((dats m 0 c).after 4 t) = _
  rw [after0_4]
  unfold out0_4
  rw [View.canon_unit_zero hz]
  simp only [View.ld_unit_zero (S := S1x256x64) hz, View.ld_unit_zero (S := S1x2048x64) hz]
  funext y
  obtain ⟨u, r, j, rfl⟩ : ∃ (u : Fin 1) (r : Fin 256) (j : Fin 2048), y = ix3 u r j := ⟨y 0, y 1, y 2, eq_ix3 y⟩
  obtain ⟨h0, h1, h2⟩ := wtile_emb t u r j
  show k0_pay2 (F := Ideal) (iblk m c 0 t) (iblk m c 1 t) (ix3 u r j)
    = probArr3 (V m c main_v0) (V m c main_v1) (((cfg0.win 4).blk t).view.emb (ix3 u r j))
  refine (stored_weights_apply (iblk m c 0 t) (iblk m c 1 t) u r j).trans ?_
  exact prob_congr (funext fun d => qblk_apply m c t 0 r d _ h0 h1 rfl)
    (funext fun j' => funext fun d => kblk_apply m c t 0 j' d _ h0 rfl rfl) (Fin.ext h2.symm)

/-- Point `t` writes back the output tile of `outArr3` of the query, key and value arrays. -/
theorem flushed_out (c : Dev nD) (t : Fin cfg0.N) :
    (dats m 0 c).flushed 3 t = ((cfg0.win 3).blk t).view.read (Elt Ideal) (outArr3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x256x64) hz, View.ld_unit_zero (S := S1x2048x64) hz]
  funext y
  obtain ⟨u, r, d, rfl⟩ : ∃ (u : Fin 1) (r : Fin 256) (d : Fin 64), y = ix3 u r d := ⟨y 0, y 1, y 2, eq_ix3 y⟩
  obtain ⟨h0, h1, h2⟩ := otile_emb t u r d
  show k0_pay3 (F := Ideal) (iblk m c 0 t) (iblk m c 1 t) (iblk m c 2 t) (ix3 u r d)
    = outArr3 (V m c main_v0) (V m c main_v1) (V m c main_v2) (((cfg0.win 3).blk t).view.emb (ix3 u r d))
  refine (stored_out_apply (iblk m c 0 t) (iblk m c 1 t) (iblk m c 2 t) u r d).trans ?_
  exact out_congr (funext fun d' => qblk_apply m c t 0 r d' _ h0 h1 rfl)
    (funext fun j' => funext fun d' => kblk_apply m c t 0 j' d' _ h0 rfl rfl)
    (funext fun j' => funext fun d' => vblk_apply m c t 0 j' d' _ h0 rfl rfl) (Fin.ext h2.symm)

/-! ## Every entry is in some point's tile -/

theorem mem_wtile (t : Fin cfg0.N) (i : S32x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v3_1).slice (win0_4.rect t)).set ↔ _
  rw [View.set_slice_whole, Rect.mem_set_unit]
  exact Iff.rfl

theorem mem_otile (t : Fin cfg0.N) (i : S32x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v3_0).slice (win0_3.rect t)).set ↔ _
  rw [View.set_slice_whole, Rect.mem_set_unit]
  exact Iff.rfl

/-- Entry `(g, i, j)` of the weights array is in the tile of point `8 g + i / 256`. -/
theorem cover_weights (i : S32x2048x2048.Idx) :
    ∃ t : Fin cfg0.N, (cfg0.win 4).flush t = true ∧ i ∈ ((cfg0.win 4).blk t).view.set := by
  have b0 : (i 0).val < 32 := (i 0).isLt
  have b1 : (i 1).val < 2048 := (i 1).isLt
  have b2 : (i 2).val < 2048 := (i 2).isLt
  have hN : cfg0.N = 256 := N_0
  refine ⟨⟨(i 0).val * 8 + (i 1).val / 256, by rw [hN]; omega⟩, flush0_4 _, ?_⟩
  rw [mem_wtile]
  obtain ⟨-, -, -, -, -, -, -, -, -, -, -, -, e0, e1, e2⟩ := idx_facts ⟨(i 0).val * 8 + (i 1).val / 256, by rw [hN]; omega⟩
  intro a
  match a with
  | ⟨0, _⟩ => show win0_4.index _ (0 : Fin 3) * 1 ≤ (i 0).val ∧ (i 0).val < win0_4.index _ (0 : Fin 3) * 1 + 1; rw [e0]; show ((i 0).val * 8 + (i 1).val / 256) / 8 * 1 ≤ (i 0).val ∧ (i 0).val < ((i 0).val * 8 + (i 1).val / 256) / 8 * 1 + 1; omega
  | ⟨1, _⟩ => show win0_4.index _ (1 : Fin 3) * 256 ≤ (i 1).val ∧ (i 1).val < win0_4.index _ (1 : Fin 3) * 256 + 256; rw [e1]; show ((i 0).val * 8 + (i 1).val / 256) % 8 * 256 ≤ (i 1).val ∧ (i 1).val < ((i 0).val * 8 + (i 1).val / 256) % 8 * 256 + 256; omega
  | ⟨2, _⟩ => show win0_4.index _ (2 : Fin 3) * 2048 ≤ (i 2).val ∧ (i 2).val < win0_4.index _ (2 : Fin 3) * 2048 + 2048; rw [e2]; omega

/-- Entry `(g, i, d)` of the output array is in the tile of point `8 g + i / 256`. -/
theorem cover_out (i : S32x2048x64.Idx) :
    ∃ t : Fin cfg0.N, (cfg0.win 3).flush t = true ∧ i ∈ ((cfg0.win 3).blk t).view.set := by
  have b0 : (i 0).val < 32 := (i 0).isLt
  have b1 : (i 1).val < 2048 := (i 1).isLt
  have b2 : (i 2).val < 64 := (i 2).isLt
  have hN : cfg0.N = 256 := N_0
  refine ⟨⟨(i 0).val * 8 + (i 1).val / 256, by rw [hN]; omega⟩, flush0_3 _, ?_⟩
  rw [mem_otile]
  obtain ⟨-, -, -, -, -, -, -, -, -, e0, e1, e2, -⟩ := idx_facts ⟨(i 0).val * 8 + (i 1).val / 256, by rw [hN]; omega⟩
  intro a
  match a with
  | ⟨0, _⟩ => show win0_3.index _ (0 : Fin 3) * 1 ≤ (i 0).val ∧ (i 0).val < win0_3.index _ (0 : Fin 3) * 1 + 1; rw [e0]; show ((i 0).val * 8 + (i 1).val / 256) / 8 * 1 ≤ (i 0).val ∧ (i 0).val < ((i 0).val * 8 + (i 1).val / 256) / 8 * 1 + 1; omega
  | ⟨1, _⟩ => show win0_3.index _ (1 : Fin 3) * 256 ≤ (i 1).val ∧ (i 1).val < win0_3.index _ (1 : Fin 3) * 256 + 256; rw [e1]; show ((i 0).val * 8 + (i 1).val / 256) % 8 * 256 ≤ (i 1).val ∧ (i 1).val < ((i 0).val * 8 + (i 1).val / 256) % 8 * 256 + 256; omega
  | ⟨2, _⟩ => show win0_3.index _ (2 : Fin 3) * 64 ≤ (i 2).val ∧ (i 2).val < win0_3.index _ (2 : Fin 3) * 64 + 64; rw [e2]; omega

/-! ## The two result arrays after the run -/

/-- The weights array after the last write-back. -/
theorem final_weights (c : Dev nD) :
    (dats m 0 c).arrAt 4 cfg0.N = probArr3 (V m c main_v0) (V m c main_v1) :=
  (dats m 0 c).arrAt_eq_of_cover 4 _ (fun t _ => flushed_weights m c t) cover_weights

/-- The output array after the last write-back. -/
theorem final_out (c : Dev nD) :
    (dats m 0 c).arrAt 3 cfg0.N = outArr3 (V m c main_v0) (V m c main_v1) (V m c main_v2) :=
  (dats m 0 c).arrAt_eq_of_cover 3 _ (fun t _ => flushed_out m c t) cover_out

end Cert.KernelIdeal.ArrValue

end
-- ==== Proof.KernelProgram.lean ====
/-
  The kernel's whole program. Before the region the three arguments are reshaped from `[2, 16, 2048, 64]` to
  `[32, 2048, 64]` (batch `b` and head `h` merged into `16 b + h`), after it the two result arrays are reshaped back
  to four axes. Row-major order is kept by both reshapes, so head `16 b + h` of a merged array is head `(b, h)` of the
  argument, and the two results of the program are `outArr` and `probArr` of its three arguments.
-/
import proofs.«128297_j47691316855186_1_alg».proof.Proof.Gen.KernelIdeal.Frame
import proofs.«128297_j47691316855186_1_alg».proof.Proof.KernelArrays
import Idealize.ShloMosaic.Lib.Pipeline.Value
import Idealize.ShloMosaic.Lib.StableHlo.Run

set_option maxRecDepth 16384

noncomputable section

namespace Cert.KernelIdeal.ProgValue

open Cert.KernelIdeal Cert.KernelIdeal.Gen Cert.KernelIdeal.ArrValue Idealize.ShloMosaic Idealize.ShloMosaic.TcCoe Idealize.SL.Sem
open Idealize.ShloMosaic.ValueIdx Idealize.ShloMosaic.StableHlo QuadAttn
open Idealize.ShloMosaic.Pipeline (Dat)

variable (m : (ℓ : Loc nD τ sig) → Buf (Elt Ideal) ℓ) (ρ : Dev nD → PrngReg)

/-! ## The reshapes at an index -/

/-- Merging batch and head: entry `(16 b + h, i, d)` of the merged array is entry `(b, h, i, d)`. -/
theorem merge_apply {α : Type} (x : S2x16x2048x64.Idx → α) (b : Fin 2) (h : Fin 16) (i : Fin 2048) (d : Fin 64)
    (g : Fin 32) (hg : g.val = b.val * 16 + h.val) :
    shapeCast S32x2048x64 x shapeCasts_S2x16x2048x64_S32x2048x64 (ix3 g i d) = x (ix4 b h i d) :=
  shapeCast_apply x _ _ _ (by
    rw [Shape.rowMajor_val_four, Shape.rowMajor_val_three]
    show ((b.val * 16 + h.val) * 2048 + i.val) * 64 + d.val = (g.val * 2048 + i.val) * 64 + d.val
    rw [hg])

/-- Splitting them again, for the outputs. -/
theorem split_out_apply {α : Type} (x : S32x2048x64.Idx → α) (b : Fin 2) (h : Fin 16) (i : Fin 2048) (d : Fin 64)
    (g : Fin 32) (hg : g.val = b.val * 16 + h.val) :
    shapeCast S2x16x2048x64 x shapeCasts_S32x2048x64_S2x16x2048x64 (ix4 b h i d) = x (ix3 g i d) :=
  shapeCast_apply x _ _ _ (by
    rw [Shape.rowMajor_val_four, Shape.rowMajor_val_three]
    show (g.val * 2048 + i.val) * 64 + d.val = ((b.val * 16 + h.val) * 2048 + i.val) * 64 + d.val
    rw [hg])

/-- And for the weights. -/
theorem split_weights_apply {α : Type} (x : S32x2048x2048.Idx → α) (b : Fin 2) (h : Fin 16) (i j : Fin 2048)
    (g : Fin 32) (hg : g.val = b.val * 16 + h.val) :
    shapeCast S2x16x2048x2048 x shapeCasts_S32x2048x2048_S2x16x2048x2048 (ix4 b h i j) = x (ix3 g i j) :=
  shapeCast_apply x _ _ _ (by
    rw [Shape.rowMajor_val_four, Shape.rowMajor_val_three]
    show (g.val * 2048 + i.val) * 2048 + j.val = ((b.val * 16 + h.val) * 2048 + i.val) * 2048 + j.val
    rw [hg])

/-! ## The arrays the region finds -/

theorem V_q (c : Dev nD) : (V m c main_v0 : S32x2048x64.Idx → Elt Ideal .f32)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_k (c : Dev nD) : (V m c main_v1 : S32x2048x64.Idx → Elt Ideal .f32)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem V_v (c : Dev nD) : (V m c main_v2 : S32x2048x64.Idx → Elt Ideal .f32)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- Head `16 b + h` of a merged array is head `(b, h)` of the argument, row by row. -/
theorem row3_merge (x : S2x16x2048x64.Idx → EReal) (b : Fin 2) (h : Fin 16) (i : Fin 2048) (g : Fin 32) (hg : g.val = b.val * 16 + h.val) :
    row3 (shapeCast S32x2048x64 x shapeCasts_S2x16x2048x64_S32x2048x64) g i = row4 x b h i :=
  funext fun d => merge_apply x b h i d g hg

theorem head3_merge (x : S2x16x2048x64.Idx → EReal) (b : Fin 2) (h : Fin 16) (g : Fin 32) (hg : g.val = b.val * 16 + h.val) :
    head3 (shapeCast S32x2048x64 x shapeCasts_S2x16x2048x64_S32x2048x64) g = head4 x b h :=
  funext fun j => funext fun d => merge_apply x b h j d g hg

/-! ## The two results as functions of the arguments -/

/-- The weights array, split back to four axes, is `probArr` of the query and key arguments. -/
theorem weights_result (c : Dev nD) :
    shapeCast S2x16x2048x2048 (probArr3 (V m c main_v0) (V m c main_v1)) shapeCasts_S32x2048x2048_S2x16x2048x2048
      = probArr (m ((c : Thread nD τ).loc main_arg0)) (m ((c : Thread nD τ).loc main_arg1)) := by
  funext i
  obtain ⟨b, h, r, j, rfl⟩ : ∃ (b : Fin 2) (h : Fin 16) (r j : Fin 2048), i = ix4 b h r j := ⟨i 0, i 1, i 2, i 3, eq_ix4 i⟩
  have hlt : b.val * 16 + h.val < 32 := by omega
  refine (split_weights_apply _ b h r j ⟨b.val * 16 + h.val, hlt⟩ rfl).trans ?_
  rw [V_q, V_k]
  exact prob_congr (row3_merge _ b h r _ rfl) (head3_merge _ b h _ rfl) rfl

/-- The output array, split back to four axes, is `outArr` of the three arguments. -/
theorem out_result (c : Dev nD) :
    shapeCast S2x16x2048x64 (outArr3 (V m c main_v0) (V m c main_v1) (V m c main_v2)) shapeCasts_S32x2048x64_S2x16x2048x64
      = outArr (m ((c : Thread nD τ).loc main_arg0)) (m ((c : Thread nD τ).loc main_arg1)) (m ((c : Thread nD τ).loc main_arg2)) := by
  funext i
  obtain ⟨b, h, r, d, rfl⟩ : ∃ (b : Fin 2) (h : Fin 16) (r : Fin 2048) (d : Fin 64), i = ix4 b h r d := ⟨i 0, i 1, i 2, i 3, eq_ix4 i⟩
  have hlt : b.val * 16 + h.val < 32 := by omega
  refine (split_out_apply _ b h r d ⟨b.val * 16 + h.val, hlt⟩ rfl).trans ?_
  rw [V_q, V_k, V_v]
  exact out_congr (row3_merge _ b h r _ rfl) (head3_merge _ b h _ rfl) (head3_merge _ b h _ rfl) rfl

/-! ## The run, read -/

/-- After the frame run the second result holds the weights. -/
theorem post_weights (r : PUnit × MemSt nD τ sig (Elt Ideal))
    (hpost : Pipeline.FramePost cfgs (dats m) 0 (Pipeline.afterTail₀ cfgs (dats m) 0 (V0 m) [hostOps1]) r) (c : Dev nD) :
    r.2.mem ((c : Thread nD τ).loc main_v5) = probArr (m ((c : Thread nD τ).loc main_arg0)) (m ((c : Thread nD τ).loc main_arg1)) := by
  refine ((hpost c).2 main_v5 (Pipeline.mem_restRefs_of main_v5 (by decide) (by decide))).trans ?_
  unfold Pipeline.afterTail₀
  show StableHlo.after hostOps1 _ (Proc.devRef .tc main_v5) = _
  after_results
  rw [Pipeline.withArrays_arr spec0 launch0.win.arr_inj c _ _ 4]
  exact (congrArg (fun A => shapeCast S2x16x2048x2048 A shapeCasts_S32x2048x2048_S2x16x2048x2048) (final_weights m c)).trans (weights_result m c)

/-- After the frame run the first result holds the outputs. -/
theorem post_out (r : PUnit × MemSt nD τ sig (Elt Ideal))
    (hpost : Pipeline.FramePost cfgs (dats m) 0 (Pipeline.afterTail₀ cfgs (dats m) 0 (V0 m) [hostOps1]) r) (c : Dev nD) :
    r.2.mem ((c : Thread nD τ).loc main_v4)
      = outArr (m ((c : Thread nD τ).loc main_arg0)) (m ((c : Thread nD τ).loc main_arg1)) (m ((c : Thread nD τ).loc main_arg2)) := by
  refine ((hpost c).2 main_v4 (Pipeline.mem_restRefs_of main_v4 (by decide) (by decide))).trans ?_
  unfold Pipeline.afterTail₀
  show StableHlo.after hostOps1 _ (Proc.devRef .tc main_v4) = _
  after_results
  rw [Pipeline.withArrays_arr spec0 launch0.win.arr_inj c _ _ 3]
  exact (congrArg (fun A => shapeCast S2x16x2048x64 A shapeCasts_S32x2048x64_S2x16x2048x64) (final_out m c)).trans (out_result m c)

/-- Every weakly fair execution of the idealized kernel's program terminates with its two results at `outArr` and
    `probArr` of the arguments, and the arguments unchanged. -/
theorem run : θ_run defs (onTc (τ := τ) (main (F := Ideal))) ⟨m, fun _ => 0, ρ⟩ fun r => ∀ c : Dev nD,
      r.2.mem ((c : Thread nD τ).loc main_v4)
        = outArr (m ((c : Thread nD τ).loc main_arg0)) (m ((c : Thread nD τ).loc main_arg1)) (m ((c : Thread nD τ).loc main_arg2))
      ∧ r.2.mem ((c : Thread nD τ).loc main_v5) = probArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_out m r h c, post_weights m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ProgValue

end
-- ==== Proof.lean ====
/-
  The idealized kernel computes quadratic-kernel attention tile by tile: one grid point per head and 256-row
  query tile, the scores `q·kᵀ/8 + 3` squared and divided by their row sum plus ε, then multiplied into the values.
  The idealized reference computes the same weights and outputs with two batched products over the whole
  `[2, 16, 2048, ·]` arrays. Over the extended reals both are, entry by entry, the functions `probArr` and
  `outArr` of `Proof/HeadSpec.lean`: the same sums in the same order of operations, the same constant words, so
  the two sides meet without any law that needs finite inputs. `Proof/RefValue.lean` reads the reference,
  `Proof/KernelRow.lean` the kernel body at one row, `Proof/KernelArrays.lean` carries the tiles to whole arrays and
  `Proof/KernelProgram.lean` the reshapes around the region. The ideal pass rewrote nothing, so `preserves` is trivial.
-/
import proofs.«128297_j47691316855186_1_alg».proof.Defs
import proofs.«128297_j47691316855186_1_alg».proof.Proof.Gen.Kernel
import proofs.«128297_j47691316855186_1_alg».proof.Proof.Gen.Kernel.Skeleton
import proofs.«128297_j47691316855186_1_alg».proof.Proof.Gen.Kernel.Launch
import proofs.«128297_j47691316855186_1_alg».proof.Proof.Gen.Kernel.Points
import proofs.«128297_j47691316855186_1_alg».proof.Proof.Gen.Kernel.Frame
import proofs.«128297_j47691316855186_1_alg».proof.Proof.Gen.KernelIdeal
import proofs.«128297_j47691316855186_1_alg».proof.Proof.Gen.KernelIdeal.Skeleton
import proofs.«128297_j47691316855186_1_alg».proof.Proof.Gen.KernelIdeal.Launch
import proofs.«128297_j47691316855186_1_alg».proof.Proof.Gen.KernelIdeal.Points
import proofs.«128297_j47691316855186_1_alg».proof.Proof.Gen.KernelIdeal.Frame
import proofs.«128297_j47691316855186_1_alg».proof.Proof.Gen.ReferenceIdeal
import proofs.«128297_j47691316855186_1_alg».proof.Proof.Gen.ReferenceIdeal.Run
import proofs.«128297_j47691316855186_1_alg».proof.Proof.Gen.ReferenceIdeal.Read
import proofs.«128297_j47691316855186_1_alg».proof.Proof.Gen.Pre_finite_inputs
import proofs.«128297_j47691316855186_1_alg».proof.Proof.RefValue
import proofs.«128297_j47691316855186_1_alg».proof.Proof.KernelProgram
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the outputs at `outArr` and the weights at `probArr` of arguments that agree. -/
theorem algebraic : Cert.algebraic_KernelIdeal_ReferenceIdeal := by
  intro m ρ m' ρ' _ hagree
  refine ⟨_, _, Cert.KernelIdeal.ProgValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.ReferenceIdeal.RefValue.out_eq, (hagree c).1, (hagree c).2.1, (hagree c).2.2]
  · rw [Cert.ReferenceIdeal.Read.val_main_v11_eq, Cert.ReferenceIdeal.RefValue.prob_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
